-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x11 : Shape := ⟨2, ![524288, 11]⟩
abbrev S11x128 : Shape := ⟨2, ![11, 128]⟩
abbrev S1x128 : Shape := ⟨2, ![1, 128]⟩
abbrev S128x128 : Shape := ⟨2, ![128, 128]⟩
abbrev S128x3 : Shape := ⟨2, ![128, 3]⟩
abbrev S1x3 : Shape := ⟨2, ![1, 3]⟩
abbrev S_ : Shape := ⟨0, ![]⟩
abbrev S96x128 : Shape := ⟨2, ![96, 128]⟩
abbrev S96x3 : Shape := ⟨2, ![96, 3]⟩

class Facts : Prop where
  bcast_S_S524288x11 : S_.BroadcastsInDim S524288x11 (![] : Fin 0 → Fin S524288x11.rank)
  reducesTo_S524288x11_S_d0_1 : S524288x11.ReducesTo [0, 1] S_
  h_S_ : 0 < S_.numel
  bcast_S_S11x128 : S_.BroadcastsInDim S11x128 (![] : Fin 0 → Fin S11x128.rank)
  reducesTo_S11x128_S_d0_1 : S11x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S1x3 : S_.BroadcastsInDim S1x3 (![] : Fin 0 → Fin S1x3.rank)
  reducesTo_S1x3_S_d0_1 : S1x3.ReducesTo [0, 1] S_
  slices_S128x128_S96x128_32_0 : S128x128.Slices ![32, 0] S96x128
  bcast_S_S96x128 : S_.BroadcastsInDim S96x128 (![] : Fin 0 → Fin S96x128.rank)
  reducesTo_S96x128_S_d0_1 : S96x128.ReducesTo [0, 1] S_
  slices_S128x3_S96x3_32_0 : S128x3.Slices ![32, 0] S96x3
  bcast_S_S96x3 : S_.BroadcastsInDim S96x3 (![] : Fin 0 → Fin S96x3.rank)
  reducesTo_S96x3_S_d0_1 : S96x3.ReducesTo [0, 1] S_

variable [Facts]

def fn_part2 {F : FTy → Type} [FloatOps F] (main_arg3 : FVec F S128x128 .f32) (main_arg5 : FVec F S128x3 .f32) (main_v33 : IVec S_ 1) : IVec S_ 1 :=
  let main_v34 : FVec F S96x128 .f32 := (extractStridedSlice S96x128 ![32, 0] · slices_S128x128_S96x128_32_0) main_arg3
  let main_cst_12 : FVec F S_ .f32 := constant S_ .f32 0x00000000#32
  let main_v35 : FVec F S96x128 .f32 := broadcastInDim S96x128 ![] bcast_S_S96x128 main_cst_12
  let main_v36 : IVec S96x128 1 := cmpf .oeq main_v34 main_v35
  let main_c_13 : IVec S_ 1 := constantI S_ 1 1#1
  let main_v37 : IVec S_ 1 := (fun x v => Host.reduce IntOp.andi x v reducesTo_S96x128_S_d0_1 h_S_) main_v36 main_c_13
  let main_v38 : IVec S_ 1 := andi main_v33 main_v37
  let main_v39 : FVec F S96x3 .f32 := (extractStridedSlice S96x3 ![32, 0] · slices_S128x3_S96x3_32_0) main_arg5
  let main_cst_14 : FVec F S_ .f32 := constant S_ .f32 0x00000000#32
  let main_v40 : FVec F S96x3 .f32 := broadcastInDim S96x3 ![] bcast_S_S96x3 main_cst_14
  let main_v41 : IVec S96x3 1 := cmpf .oeq main_v39 main_v40
  let main_c_15 : IVec S_ 1 := constantI S_ 1 1#1
  let main_v42 : IVec S_ 1 := (fun x v => Host.reduce IntOp.andi x v reducesTo_S96x3_S_d0_1 h_S_) main_v41 main_c_15
  let main_v43 : IVec S_ 1 := andi main_v38 main_v42
  main_v43

def fn_part1 {F : FTy → Type} [FloatOps F] (main_arg3 : FVec F S128x128 .f32) (main_arg4 : FVec F S1x128 .f32) (main_arg5 : FVec F S128x3 .f32) (main_arg6 : FVec F S1x3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128x3 .f32 := Host.absf main_arg5
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v23 main_v27
  let main_v29 : FVec F S1x3 .f32 := Host.absf main_arg6
  let main_cst_10 : FVec F S_ .f32 := constant S_ .f32 0x7F800000#32
  let main_v30 : FVec F S1x3 .f32 := broadcastInDim S1x3 ![] bcast_S_S1x3 main_cst_10
  let main_v31 : IVec S1x3 1 := cmpf .olt main_v29 main_v30
  let main_c_11 : IVec S_ 1 := constantI S_ 1 1#1
  let main_v32 : IVec S_ 1 := (fun x v => Host.reduce IntOp.andi x v reducesTo_S1x3_S_d0_1 h_S_) main_v31 main_c_11
  let main_v33 : IVec S_ 1 := andi main_v28 main_v32
  fn_part2 (F := F) main_arg3 main_arg5 main_v33

def fn {F : FTy → Type} [FloatOps F] (main_arg0 : FVec F S524288x11 .f32) (main_arg1 : FVec F S11x128 .f32) (main_arg2 : FVec F S1x128 .f32) (main_arg3 : FVec F S128x128 .f32) (main_arg4 : FVec F S1x128 .f32) (main_arg5 : FVec F S128x3 .f32) (main_arg6 : FVec F S1x3 .f32) : IVec S_ 1 :=
  let main_v0 : FVec F S524288x11 .f32 := Host.absf main_arg0
  let main_cst : FVec F S_ .f32 := constant S_ .f32 0x7F800000#32
  let main_v1 : FVec F S524288x11 .f32 := broadcastInDim S524288x11 ![] bcast_S_S524288x11 main_cst
  let main_v2 : IVec S524288x11 1 := cmpf .olt main_v0 main_v1
  let main_c : IVec S_ 1 := constantI S_ 1 1#1
  let main_v3 : IVec S_ 1 := (fun x v => Host.reduce IntOp.andi x v reducesTo_S524288x11_S_d0_1 h_S_) main_v2 main_c
  let main_v4 : FVec F S11x128 .f32 := Host.absf main_arg1
  let main_cst_0 : FVec F S_ .f32 := constant S_ .f32 0x7F800000#32
  let main_v5 : FVec F S11x128 .f32 := broadcastInDim S11x128 ![] bcast_S_S11x128 main_cst_0
  let main_v6 : IVec S11x128 1 := cmpf .olt main_v4 main_v5
  let main_c_1 : IVec S_ 1 := constantI S_ 1 1#1
  let main_v7 : IVec S_ 1 := (fun x v => Host.reduce IntOp.andi x v reducesTo_S11x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg4 main_arg5 main_arg6 main_v13 main_v16
-- ==== Kernel.lean ====
abbrev S524288x11 : Shape := ⟨2, ![524288, 11]⟩
abbrev S11x128 : Shape := ⟨2, ![11, 128]⟩
abbrev S1x128 : Shape := ⟨2, ![1, 128]⟩
abbrev S128x128 : Shape := ⟨2, ![128, 128]⟩
abbrev S128x3 : Shape := ⟨2, ![128, 3]⟩
abbrev S1x3 : Shape := ⟨2, ![1, 3]⟩
abbrev S11x32 : Shape := ⟨2, ![11, 32]⟩
abbrev S32x11 : Shape := ⟨2, ![32, 11]⟩
abbrev S32x32 : Shape := ⟨2, ![32, 32]⟩
abbrev S32x3 : Shape := ⟨2, ![32, 3]⟩
abbrev S3x32 : Shape := ⟨2, ![3, 32]⟩
abbrev S1x32 : Shape := ⟨2, ![1, 32]⟩
abbrev S32x1 : Shape := ⟨2, ![32, 1]⟩
abbrev S3x1 : Shape := ⟨2, ![3, 1]⟩
abbrev S11x524288 : Shape := ⟨2, ![11, 524288]⟩
abbrev S3x524288 : Shape := ⟨2, ![3, 524288]⟩
abbrev S11x32768 : Shape := ⟨2, ![11, 32768]⟩
abbrev S3x32768 : Shape := ⟨2, ![3, 32768]⟩
abbrev S32x32768 : Shape := ⟨2, ![32, 32768]⟩
abbrev S524288x3 : Shape := ⟨2, ![524288, 3]⟩

abbrev nBuf : Space → Nat
  | .hbm => 21
  | .vmem => 10
  | .smem => 0
  | _ => 0

abbrev bufTy : (tb : Table) → Fin (tcTables nBuf tb) → BufTy
  | .hbm, ⟨0, _⟩ => ⟨S524288x11, .f32⟩
  | .hbm, ⟨1, _⟩ => ⟨S11x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S128x3, .f32⟩
  | .hbm, ⟨6, _⟩ => ⟨S1x3, .f32⟩
  | .hbm, ⟨7, _⟩ => ⟨S11x32, .f32⟩
  | .hbm, ⟨8, _⟩ => ⟨S32x11, .f32⟩
  | .hbm, ⟨9, _⟩ => ⟨S32x32, .f32⟩
  | .hbm, ⟨10, _⟩ => ⟨S32x32, .f32⟩
  | .hbm, ⟨11, _⟩ => ⟨S32x3, .f32⟩
  | .hbm, ⟨12, _⟩ => ⟨S3x32, .f32⟩
  | .hbm, ⟨13, _⟩ => ⟨S1x32, .f32⟩
  | .hbm, ⟨14, _⟩ => ⟨S32x1, .f32⟩
  | .hbm, ⟨15, _⟩ => ⟨S1x32, .f32⟩
  | .hbm, ⟨16, _⟩ => ⟨S32x1, .f32⟩
  | .hbm, ⟨17, _⟩ => ⟨S3x1, .f32⟩
  | .hbm, ⟨18, _⟩ => ⟨S11x524288, .f32⟩
  | .hbm, ⟨19, _⟩ => ⟨S3x524288, .f32⟩
  | .hbm, ⟨20, _⟩ => ⟨S524288x3, .f32⟩
  | .local _ .vmem, ⟨0, _⟩ => ⟨S11x32768, .f32⟩
  | .local _ .vmem, ⟨1, _⟩ => ⟨S11x32768, .f32⟩
  | .local _ .vmem, ⟨2, _⟩ => ⟨S32x11, .f32⟩
  | .local _ .vmem, ⟨3, _⟩ => ⟨S32x1, .f32⟩
  | .local _ .vmem, ⟨4, _⟩ => ⟨S32x32, .f32⟩
  | .local _ .vmem, ⟨5, _⟩ => ⟨S32x1, .f32⟩
  | .local _ .vmem, ⟨6, _⟩ => ⟨S3x32, .f32⟩
  | .local _ .vmem, ⟨7, _⟩ => ⟨S3x1, .f32⟩
  | .local _ .vmem, ⟨8, _⟩ => ⟨S3x32768, .f32⟩
  | .local _ .vmem, ⟨9, _⟩ => ⟨S3x32768, .f32⟩
  | _, _ => ⟨S524288x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S11x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x11 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x32768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S11x128_S11x32_0_0 : S11x128.Slices ![0, 0] S11x32
  transposes_S11x32_S32x11_1_0 : S11x32.Transposes [1, 0] S32x11
  slices_S128x128_S32x32_0_0 : S128x128.Slices ![0, 0] S32x32
  transposes_S32x32_S32x32_1_0 : S32x32.Transposes [1, 0] S32x32
  slices_S128x3_S32x3_0_0 : S128x3.Slices ![0, 0] S32x3
  transposes_S32x3_S3x32_1_0 : S32x3.Transposes [1, 0] S3x32
  slices_S1x128_S1x32_0_0 : S1x128.Slices ![0, 0] S1x32
  transposes_S1x32_S32x1_1_0 : S1x32.Transposes [1, 0] S32x1
  transposes_S1x3_S3x1_1_0 : S1x3.Transposes [1, 0] S3x1
  transposes_S524288x11_S11x524288_1_0 : S524288x11.Transposes [1, 0] S11x524288
  inb_S32x11_S32x11_0_0 : ∀ a, (![0, 0] : Fin 2 → Nat) a + S32x11.size a ≤ S32x11.size a
  h_S32x11 : 0 < S32x11.numel
  shapeCasts_S32x11_S32x11 : S32x11.ShapeCasts S32x11
  inb_S11x32768_S11x32768_0_0 : ∀ a, (![0, 0] : Fin 2 → Nat) a + S11x32768.size a ≤ S11x32768.size a
  h_S11x32768 : 0 < S11x32768.numel
  shapeCasts_S11x32768_S11x32768 : S11x32768.ShapeCasts S11x32768
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x32768 : S32x1.Broadcasts S32x32768
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S3x32_S3x32_0_0 : ∀ a, (![0, 0] : Fin 2 → Nat) a + S3x32.size a ≤ S3x32.size a
  h_S3x32 : 0 < S3x32.numel
  shapeCasts_S3x32_S3x32 : S3x32.ShapeCasts S3x32
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x32768 : S3x1.Broadcasts S3x32768
  inb_S3x32768_S3x32768_0_0 : ∀ a, (![0, 0] : Fin 2 → Nat) a + S3x32768.size a ≤ S3x32768.size a
  h_S3x32768 : 0 < S3x32768.numel
  transposes_S3x524288_S524288x3_1_0 : S3x524288.Transposes [1, 0] S524288x3
  dot_S32x11_S11x32768_S32x32768_1_0_0_1_n_n_wf : DotDims.WF S32x11 S11x32768 S32x32768 [1] [0] [0] [1] [] []
  dot_S32x32_S32x32768_S32x32768_1_0_0_1_n_n_wf : DotDims.WF S32x32 S32x32768 S32x32768 [1] [0] [0] [1] [] []
  dot_S3x32_S32x32768_S3x32768_1_0_0_1_n_n_wf : DotDims.WF S3x32 S32x32768 S3x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S11x32768.size a ≤ S11x524288.size a
  hwx0_0 : ∀ i : grid0.Coords, EltTy.bits .f32 = 32 ∨ (Rect.block (s := S11x524288) S11x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x11.size a ≤ S32x11.size a
  hwx0_1 : ∀ i : grid0.Coords, EltTy.bits .f32 = 32 ∨ (Rect.block (s := S32x11) S32x11.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x32.size a ≤ S3x32.size a
  hwx0_5 : ∀ i : grid0.Coords, EltTy.bits .f32 = 32 ∨ (Rect.block (s := S3x32) S3x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3x32768.size a ≤ S3x524288.size a
  hwx0_7 : ∀ i : grid0.Coords, EltTy.bits .f32 = 32 ∨ (Rect.block (s := S3x524288) S3x32768.size (cc0_transform_7 i) (hinb0_7 i)).WholeWords (EltTy.packing .f32)

variable [Facts₀]

def dot_S32x11_S11x32768_S32x32768_1_0_0_1_n_n : DotDims S32x11 S11x32768 S32x32768 where
  lhsContracting := [1]
  rhsContracting := [0]
  lhsNonContracting := [0]
  rhsNonContracting := [1]
  lhsBatch := []
  rhsBatch := []
  wf := dot_S32x11_S11x32768_S32x32768_1_0_0_1_n_n_wf
def dot_S32x32_S32x32768_S32x32768_1_0_0_1_n_n : DotDims S32x32 S32x32768 S32x32768 where
  lhsContracting := [1]
  rhsContracting := [0]
  lhsNonContracting := [0]
  rhsNonContracting := [1]
  lhsBatch := []
  rhsBatch := []
  wf := dot_S32x32_S32x32768_S32x32768_1_0_0_1_n_n_wf
def dot_S3x32_S32x32768_S3x32768_1_0_0_1_n_n : DotDims S3x32 S32x32768 S3x32768 where
  lhsContracting := [1]
  rhsContracting := [0]
  lhsNonContracting := [0]
  rhsNonContracting := [1]
  lhsBatch := []
  rhsBatch := []
  wf := dot_S3x32_S32x32768_S3x32768_1_0_0_1_n_n_wf

abbrev win0_0 : Pipeline.Window sig grid0 :=
  Pipeline.Window.ofSpec (Memref.whole main_v11) S11x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x11.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S3x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S3x32768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S524288x11 : Shape := ⟨2, ![524288, 11]⟩
abbrev S11x128 : Shape := ⟨2, ![11, 128]⟩
abbrev S1x128 : Shape := ⟨2, ![1, 128]⟩
abbrev S128x128 : Shape := ⟨2, ![128, 128]⟩
abbrev S128x3 : Shape := ⟨2, ![128, 3]⟩
abbrev S1x3 : Shape := ⟨2, ![1, 3]⟩
abbrev S524288x3 : Shape := ⟨2, ![524288, 3]⟩
abbrev S4096x11 : Shape := ⟨2, ![4096, 11]⟩
abbrev S4096x3 : Shape := ⟨2, ![4096, 3]⟩
abbrev S4096x128 : Shape := ⟨2, ![4096, 128]⟩

abbrev nBuf : Space → Nat
  | .hbm => 8
  | .vmem => 10
  | .smem => 0
  | _ => 0

abbrev bufTy : (tb : Table) → Fin (tcTables nBuf tb) → BufTy
  | .hbm, ⟨0, _⟩ => ⟨S524288x11, .f32⟩
  | .hbm, ⟨1, _⟩ => ⟨S11x128, .f32⟩
  | .hbm, ⟨2, _⟩ => ⟨S1x128, .f32⟩
  | .hbm, ⟨3, _⟩ => ⟨S128x128, .f32⟩
  | .hbm, ⟨4, _⟩ => ⟨S1x128, .f32⟩
  | .hbm, ⟨5, _⟩ => ⟨S128x3, .f32⟩
  | .hbm, ⟨6, _⟩ => ⟨S1x3, .f32⟩
  | .hbm, ⟨7, _⟩ => ⟨S524288x3, .f32⟩
  | .local _ .vmem, ⟨0, _⟩ => ⟨S4096x11, .f32⟩
  | .local _ .vmem, ⟨1, _⟩ => ⟨S4096x11, .f32⟩
  | .local _ .vmem, ⟨2, _⟩ => ⟨S11x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x3, .f32⟩
  | .local _ .vmem, ⟨7, _⟩ => ⟨S1x3, .f32⟩
  | .local _ .vmem, ⟨8, _⟩ => ⟨S4096x3, .f32⟩
  | .local _ .vmem, ⟨9, _⟩ => ⟨S4096x3, .f32⟩
  | _, _ => ⟨S524288x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S4096x11_S4096x11_0_0 : ∀ a, (![0, 0] : Fin 2 → Nat) a + S4096x11.size a ≤ S4096x11.size a
  h_S4096x11 : 0 < S4096x11.numel
  inb_S11x128_S11x128_0_0 : ∀ a, (![0, 0] : Fin 2 → Nat) a + S11x128.size a ≤ S11x128.size a
  h_S11x128 : 0 < S11x128.numel
  inb_S1x128_S1x128_0_0 : ∀ a, (![0, 0] : Fin 2 → Nat) a + S1x128.size a ≤ S1x128.size a
  h_S1x128 : 0 < S1x128.numel
  broadcasts_S1x128_S4096x128 : S1x128.Broadcasts S4096x128
  inb_S128x128_S128x128_0_0 : ∀ a, (![0, 0] : Fin 2 → Nat) a + S128x128.size a ≤ S128x128.size a
  h_S128x128 : 0 < S128x128.numel
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  broadcasts_S1x3_S4096x3 : S1x3.Broadcasts S4096x3
  inb_S4096x3_S4096x3_0_0 : ∀ a, (![0, 0] : Fin 2 → Nat) a + S4096x3.size a ≤ S4096x3.size a
  h_S4096x3 : 0 < S4096x3.numel
  dot_S4096x11_S11x128_S4096x128_1_0_0_1_n_n_wf : DotDims.WF S4096x11 S11x128 S4096x128 [1] [0] [0] [1] [] []
  dot_S4096x128_S128x128_S4096x128_1_0_0_1_n_n_wf : DotDims.WF S4096x128 S128x128 S4096x128 [1] [0] [0] [1] [] []
  dot_S4096x128_S128x3_S4096x3_1_0_0_1_n_n_wf : DotDims.WF S4096x128 S128x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x11.size a ≤ S524288x11.size a
  hwx0_0 : ∀ i : grid0.Coords, EltTy.bits .f32 = 32 ∨ (Rect.block (s := S524288x11) S4096x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x128.size a ≤ S11x128.size a
  hwx0_1 : ∀ i : grid0.Coords, EltTy.bits .f32 = 32 ∨ (Rect.block (s := S11x128) S11x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x3.size a ≤ S128x3.size a
  hwx0_5 : ∀ i : grid0.Coords, EltTy.bits .f32 = 32 ∨ (Rect.block (s := S128x3) S128x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x3.size a ≤ S524288x3.size a
  hwx0_7 : ∀ i : grid0.Coords, EltTy.bits .f32 = 32 ∨ (Rect.block (s := S524288x3) S4096x3.size (cc0_transform_7 i) (hinb0_7 i)).WholeWords (EltTy.packing .f32)

variable [Facts₀]

def dot_S4096x11_S11x128_S4096x128_1_0_0_1_n_n : DotDims S4096x11 S11x128 S4096x128 where
  lhsContracting := [1]
  rhsContracting := [0]
  lhsNonContracting := [0]
  rhsNonContracting := [1]
  lhsBatch := []
  rhsBatch := []
  wf := dot_S4096x11_S11x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x3_S4096x3_1_0_0_1_n_n : DotDims S4096x128 S128x3 S4096x3 where
  lhsContracting := [1]
  rhsContracting := [0]
  lhsNonContracting := [0]
  rhsNonContracting := [1]
  lhsBatch := []
  rhsBatch := []
  wf := dot_S4096x128_S128x3_S4096x3_1_0_0_1_n_n_wf

abbrev win0_0 : Pipeline.Window sig grid0 :=
  Pipeline.Window.ofSpec (Memref.whole main_arg0) S4096x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S11x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S4096x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.Mlp.lean ====
/-
  The two multilayer perceptrons as functions of the argument arrays, over the extended reals, and the law joining them.

  With `x : [524288, 11]`, `w1 : [11, 128]`, `b1 : [1, 128]`, `w2 : [128, 128]`, `b2 : [1, 128]`, `w3 : [128, 3]`,
  `b3 : [1, 3]` and `relu t = max t 0`:

  * `wide` is the network over all 128 hidden units,
      `out (r, o) = ∑ k < 128, h₂ (r, k) · w3 (k, o) + b3 o`,
      `h₂ (r, k) = relu (∑ j < 128, h₁ (r, j) · w2 (j, k) + b2 k)`,
      `h₁ (r, j) = relu (∑ i < 11, x (r, i) · w1 (i, j) + b1 j)`;
  * `narrow` is the network over the first 32 hidden units only, each product written weight first,
      `out (r, o) = ∑ k < 32, w3 (k, o) · g₂ (r, k) + b3 o`,
      `g₂ (r, k) = relu (∑ j < 32, w2 (j, k) · g₁ (r, j) + b2 k)`,
      `g₁ (r, j) = relu (∑ i < 11, w1 (i, j) · x (r, i) + b1 j)`.

  They agree as soon as rows 32 … 127 of `w2` and of `w3` are zero: a hidden unit of index ≥ 32 then enters the next
  layer's sum with the factor `0`, and on the extended reals `t · 0 = 0` for every `t`, infinite ones included, so
  each sum over 128 units is its first 32 terms (`sum_first`); what is left differs from the narrow network only by
  the order of the factors.  Nothing is assumed of `x`, `w1`, the biases, or the other entries of `w2`, `w3`.
-/
import Idealize.ShloMosaic.Lib.ValueIdx

noncomputable section

open scoped BigOperators

namespace Cert.Mlp

open Idealize.ShloMosaic Idealize.ShloMosaic.ValueIdx

/-- A matrix of extended reals, by its two coordinates. -/
abbrev Mat (r c : ℕ) : Type := (⟨2, ![r, c]⟩ : Shape).Idx → EReal

/-- A sum over `N` terms whose terms from `n` on are zero is the sum of its first `n` terms. -/
theorem sum_first {n N : ℕ} (h : n ≤ N) (f : Fin N → EReal) (hz : ∀ j : Fin N, n ≤ j.val → f j = 0) :
    ∑ j : Fin N, f j = ∑ j : Fin n, f (Fin.castLE h j) := by
  have e : ∑ j : Fin n, f (Fin.castLE h j) = ∑ j ∈ Finset.univ.map (Fin.castLEEmb h), f j :=
    (Finset.sum_map Finset.univ (Fin.castLEEmb h) f).symm
  rw [e]
  symm
  refine Finset.sum_subset (Finset.subset_univ _) fun j _ hj => hz j ?_
  by_contra hlt
  exact hj (Finset.mem_map.mpr ⟨⟨j.val, Nat.lt_of_not_le hlt⟩, Finset.mem_univ _, Fin.ext rfl⟩)

/-- Hidden unit `j < 32` as a unit of the 128-wide layer. -/
abbrev up (j : Fin 32) : Fin 128 := Fin.castLE (by decide) j

section
variable (x : Mat 524288 11) (w1 : Mat 11 128) (b1 : Mat 1 128) (w2 : Mat 128 128) (b2 : Mat 1 128)
  (w3 : Mat 128 3) (b3 : Mat 1 3)

/-! ## The network over all 128 hidden units -/

def wide1 (r : Fin 524288) (j : Fin 128) : EReal :=
  max (∑ i : Fin 11, x (ix2 r i) * w1 (ix2 i j) + b1 (ix2 0 j)) 0

def wide2 (r : Fin 524288) (k : Fin 128) : EReal :=
  max (∑ j : Fin 128, wide1 x w1 b1 r j * w2 (ix2 j k) + b2 (ix2 0 k)) 0

def wideAt (r : Fin 524288) (o : Fin 3) : EReal :=
  ∑ k : Fin 128, wide2 x w1 b1 w2 b2 r k * w3 (ix2 k o) + b3 (ix2 0 o)

/-- The 128-wide network's result array. -/
def wide : Mat 524288 3 := fun i => wideAt x w1 b1 w2 b2 w3 b3 (i 0) (i 1)

/-! ## The network over the first 32 hidden units -/

def narrow1 (r : Fin 524288) (j : Fin 32) : EReal :=
  max (∑ i : Fin 11, w1 (ix2 i (up j)) * x (ix2 r i) + b1 (ix2 0 (up j))) 0

def narrow2 (r : Fin 524288) (k : Fin 32) : EReal :=
  max (∑ j : Fin 32, w2 (ix2 (up j) (up k)) * narrow1 x w1 b1 r j + b2 (ix2 0 (up k))) 0

def narrowAt (r : Fin 524288) (o : Fin 3) : EReal :=
  ∑ k : Fin 32, w3 (ix2 (up k) o) * narrow2 x w1 b1 w2 b2 r k + b3 (ix2 0 o)

/-- The 32-wide network's result array. -/
def narrow : Mat 524288 3 := fun i => narrowAt x w1 b1 w2 b2 w3 b3 (i 0) (i 1)

/-! ## They agree when the padded rows of `w2` and `w3` are zero -/

theorem narrow1_eq (r : Fin 524288) (j : Fin 32) : narrow1 x w1 b1 r j = wide1 x w1 b1 r (up j) := by
  unfold narrow1 wide1
  congr 2
  exact Finset.sum_congr rfl fun i _ => mul_comm _ _

theorem narrow2_eq (hw2 : ∀ j k : Fin 128, 32 ≤ j.val → w2 (ix2 j k) = 0) (r : Fin 524288) (k : Fin 32) :
    narrow2 x w1 b1 w2 b2 r k = wide2 x w1 b1 w2 b2 r (up k) := by
  unfold narrow2 wide2
  rw [sum_first (by decide : 32 ≤ 128) (fun j => wide1 x w1 b1 r j * w2 (ix2 j (up k)))
    (fun j hj => by rw [hw2 j (up k) hj, mul_zero])]
  congr 2
  exact Finset.sum_congr rfl fun j _ => by rw [narrow1_eq, mul_comm]

theorem narrowAt_eq_wideAt (hw2 : ∀ j k : Fin 128, 32 ≤ j.val → w2 (ix2 j k) = 0)
    (hw3 : ∀ (k : Fin 128) (o : Fin 3), 32 ≤ k.val → w3 (ix2 k o) = 0) (r : Fin 524288) (o : Fin 3) :
    narrowAt x w1 b1 w2 b2 w3 b3 r o = wideAt x w1 b1 w2 b2 w3 b3 r o := by
  unfold narrowAt wideAt
  rw [sum_first (by decide : 32 ≤ 128) (fun k => wide2 x w1 b1 w2 b2 r k * w3 (ix2 k o))
    (fun k hk => by rw [hw3 k o hk, mul_zero])]
  congr 1
  exact Finset.sum_congr rfl fun k _ => by rw [narrow2_eq x w1 b1 w2 b2 hw2, mul_comm]

theorem narrow_eq_wide (hw2 : ∀ j k : Fin 128, 32 ≤ j.val → w2 (ix2 j k) = 0)
    (hw3 : ∀ (k : Fin 128) (o : Fin 3), 32 ≤ k.val → w3 (ix2 k o) = 0) :
    narrow x w1 b1 w2 b2 w3 b3 = wide x w1 b1 w2 b2 w3 b3 :=
  funext fun i => narrowAt_eq_wideAt x w1 b1 w2 b2 w3 b3 hw2 hw3 (i 0) (i 1)

end

end Cert.Mlp

end
-- ==== Proof.PadZero.lean ====
/-
  The two zero-padding conjuncts of the printed precondition, read back at the ideal (extended-real) instance.

  The precondition is a left-nested conjunction of one-bit scalars.  Two of its conjuncts have the form
  "all of (a row slice of a weight matrix == 0.0)": a unit-stride slice, compared for ordered equality with the
  broadcast zero constant, reduced by `and` over every axis.  If the whole conjunction is the bit 1 then so is each
  conjunct; a total `and`-reduction that is 1 had a 1 at every index; an ordered-equal comparison of two extended
  reals that is 1 says they are equal; the bit pattern 0x00000000 denotes the real 0; and the slice from row 32 reads,
  at row j - 32, the source's row j.  Hence rows 32..127 of the two weight matrices vanish.
-/
import proofs.«123555_g2000006235729332_pallasbulk_469_5_alg».proof.Pre_finite_inputs
import Idealize.ShloMosaic.Lib.ValueIdx
import Idealize.ShloMosaic.Lib.ReduceAll
import Idealize.ShloMosaic.Lib.Pipeline.Value
import Idealize.ShloMosaic.Lib.ValueLayout
import Idealize.ShloMosaic.PureOps.Ideal.Laws

noncomputable section

namespace Cert.PadZero

open Idealize.ShloMosaic Idealize.ShloMosaic.ValueIdx

variable [Cert.Pre_finite_inputs.Facts]

/-- The scalar shape has exactly one index. -/
private instance subsingleton_scalarIdx : Subsingleton (⟨0, ![]⟩ : Shape).Idx :=
  ⟨fun _ _ => funext fun d => d.elim0⟩

/-- An ordered-equal comparison of two extended reals that is the bit 1 says the two are equal. -/
private theorem eq_of_cmp_oeq {x y : EReal} (h : Ideal.cmp .oeq x y = 1#1) : x = y := by
  by_contra hne
  have h0 : Ideal.cmp .oeq x y = 0#1 := by simp [Ideal.cmp, hne]
  rw [h0] at h
  exact absurd h (by decide)

/-- `all(slice == 0.0)` read back: if the total `and`-reduction of the comparison of a slice with the broadcast zero
    constant is 1, the slice is the extended real 0 at every index. -/
private theorem slice_eq_zero {s t : Shape} {axes : List (Fin t.rank)} (off : Fin s.rank → Nat) (hs : s.Slices off t)
    (hb : (⟨0, ![]⟩ : Shape).BroadcastsInDim t (![] : Fin 0 → Fin t.rank))
    (hr : t.ReducesTo axes ⟨0, ![]⟩) (hu : 0 < (⟨0, ![]⟩ : Shape).numel) (w : FVec Ideal s .f32)
    (e : Host.reduce IntOp.andi
          (cmpf .oeq (extractStridedSlice t off w hs)
            (broadcastInDim t ![] hb (constant (F := Ideal) ⟨0, ![]⟩ .f32 0x00000000#32)))
          (constantI ⟨0, ![]⟩ 1 1#1) hr hu ix0 = 1#1)
    (j : t.Idx) : extractStridedSlice t off w hs j = (0 : EReal) := by
  have h1 := Host.reduce_andi_all _ _ hr hu ix0 e j
  rw [cmpf_apply] at h1
  rw [eq_of_cmp_oeq h1]
  exact Ideal.ofBits_zero_f32

/-- Rows 32..127 of the second-layer weight matrix are zero. -/
theorem w2_rows (x : FVec Ideal Cert.Pre_finite_inputs.S524288x11 .f32) (w1 : FVec Ideal Cert.Pre_finite_inputs.S11x128 .f32)
    (b1 : FVec Ideal Cert.Pre_finite_inputs.S1x128 .f32) (w2 : FVec Ideal Cert.Pre_finite_inputs.S128x128 .f32)
    (b2 : FVec Ideal Cert.Pre_finite_inputs.S1x128 .f32) (w3 : FVec Ideal Cert.Pre_finite_inputs.S128x3 .f32)
    (b3 : FVec Ideal Cert.Pre_finite_inputs.S1x3 .f32)
    (h : Cert.Pre_finite_inputs.fn (F := Ideal) x w1 b1 w2 b2 w3 b3 = fun _ => 1#1) :
    ∀ (j k : Fin 128), 32 ≤ j.val → (w2 : (⟨2, ![128, 128]⟩ : Shape).Idx → EReal) (ix2 j k) = 0 := by
  intro j k hj
  have h0 := congrFun h ix0
  unfold Cert.Pre_finite_inputs.fn Cert.Pre_finite_inputs.fn_part1 Cert.Pre_finite_inputs.fn_part2 at h0
  dsimp only at h0
  have a1 := IntOp.andi_eq_one.1 h0
  have a2 := IntOp.andi_eq_one.1 a1.1
  have hlt := j.isLt
  have hz := slice_eq_zero _ _ _ _ _ w2 a2.2 (ix2 (⟨j.val - 32, by omega⟩ : Fin 96) k)
  rw [slice2_axis0_apply 32 w2 _ (⟨j.val - 32, by omega⟩ : Fin 96) k j (by show j.val = 32 + (j.val - 32); omega)] at hz
  exact hz

/-- Rows 32..127 of the output-layer weight matrix are zero. -/
theorem w3_rows (x : FVec Ideal Cert.Pre_finite_inputs.S524288x11 .f32) (w1 : FVec Ideal Cert.Pre_finite_inputs.S11x128 .f32)
    (b1 : FVec Ideal Cert.Pre_finite_inputs.S1x128 .f32) (w2 : FVec Ideal Cert.Pre_finite_inputs.S128x128 .f32)
    (b2 : FVec Ideal Cert.Pre_finite_inputs.S1x128 .f32) (w3 : FVec Ideal Cert.Pre_finite_inputs.S128x3 .f32)
    (b3 : FVec Ideal Cert.Pre_finite_inputs.S1x3 .f32)
    (h : Cert.Pre_finite_inputs.fn (F := Ideal) x w1 b1 w2 b2 w3 b3 = fun _ => 1#1) :
    ∀ (k : Fin 128) (o : Fin 3), 32 ≤ k.val → (w3 : (⟨2, ![128, 3]⟩ : Shape).Idx → EReal) (ix2 k o) = 0 := by
  intro k o hk
  have h0 := congrFun h ix0
  unfold Cert.Pre_finite_inputs.fn Cert.Pre_finite_inputs.fn_part1 Cert.Pre_finite_inputs.fn_part2 at h0
  dsimp only at h0
  have a1 := IntOp.andi_eq_one.1 h0
  have hlt := k.isLt
  have hz := slice_eq_zero _ _ _ _ _ w3 a1.2 (ix2 (⟨k.val - 32, by omega⟩ : Fin 96) o)
  rw [slice2_axis0_apply 32 w3 _ (⟨k.val - 32, by omega⟩ : Fin 96) o k (by show k.val = 32 + (k.val - 32); omega)] at hz
  exact hz

end Cert.PadZero
-- ==== Proof.MatmulAt.lean ====
/-
  A matrix product read at one entry, over the extended reals.

  A `tpu.matmul` whose dimension numbers are those of a plain product — the left operand `[M, K]`, the right
  `[K, N]`, the result `[M, N]`, contracting the left operand's columns against the right operand's rows, no batch
  axis — started from a zero accumulator, has at entry `(a, q)` the value `∑ k, A (a, k) * B (k, q)`.  The
  dimension numbers enter only through six list equations (`Plain`), which every record of that kind satisfies by
  `rfl`; the operand indices at a result index and a contraction position are read off those lists coordinate by
  coordinate, and the contraction's one-axis index set is identified with `Fin K`.
-/
import Idealize.ShloMosaic.Lib.ValueIdx
import Idealize.ShloMosaic.PureOps.Ideal.Laws

noncomputable section

open scoped BigOperators

namespace Cert.MatmulAt

open Idealize.ShloMosaic Idealize.ShloMosaic.ValueIdx

variable {M K N : ℕ}

/-- The dimension numbers of a plain product `[M, K] × [K, N] → [M, N]`. -/
structure Plain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- A coordinate of an index depends only on the axis's number. -/
theorem coord_congr {s : Shape} (j : s.Idx) (p q : ℕ) (hp : p < s.rank) (hq : q < s.rank) (h : p = q) :
    (j ⟨p, hp⟩ : ℕ) = (j ⟨q, hq⟩ : ℕ) := by subst h; rfl

/-- The left operand's row is the result's row. -/
theorem lhs_row (hd : Plain d) (j : (⟨2, ![M, N]⟩ : Shape).Idx) (k : d.contr.Idx) : (d.lhsIdx j k 0 : ℕ) = (j 0 : ℕ) := by
  simp [DotDims.lhsIdx, hd.lb, hd.ln, hd.lc]
  exact coord_congr j _ _ _ _ (by simp [hd.lb, hd.ln])

/-- The right operand's column is the result's column. -/
theorem rhs_col (hd : Plain d) (j : (⟨2, ![M, N]⟩ : Shape).Idx) (k : d.contr.Idx) : (d.rhsIdx j k 1 : ℕ) = (j 1 : ℕ) := by
  simp [DotDims.rhsIdx, hd.rb, hd.rn, hd.rc, hd.lb, hd.ln]
  exact coord_congr j _ _ _ _ (by simp [hd.lb, hd.ln, hd.rn])

theorem contr_rank (hd : Plain d) : d.contr.rank = 1 := by rw [d.rank_contr, hd.lc]; rfl

theorem contr_size (hd : Plain d) : d.contr.size ⟨0, by rw [contr_rank hd]; exact Nat.one_pos⟩ = K := by
  rw [d.size_contr 0 (by rw [hd.lc]; exact Nat.one_pos)]
  simp [hd.lc]

/-- Entry `(a, q)` of the product into a zero accumulator is the sum over the contracted axis. -/
theorem matmul_zero_at (hd : Plain d) (prec : Option ContractPrecision)
    (A : FVec Ideal ⟨2, ![M, K]⟩ .f32) (B : FVec Ideal ⟨2, ![K, N]⟩ .f32) (a : Fin M) (q : Fin N) :
    matmul d prec A B (constant ⟨2, ![M, N]⟩ .f32 0x00000000#32) (ix2 a q) = ∑ k : Fin K, A (ix2 a k) * B (ix2 k q) := by
  have hr := contr_rank hd
  have hs := contr_size hd
  show FloatOps.matmul d prec A B (constant ⟨2, ![M, N]⟩ .f32 0x00000000#32) (ix2 a q) = _
  rw [Ideal.matmul_constant_zero_apply, ← Equiv.sum_comp (contrEquiv1 d K hr hs).symm]
  refine Finset.sum_congr rfl fun k _ => ?_
  have e1 : d.lhsIdx (ix2 a q) ((contrEquiv1 d K hr hs).symm k) = ix2 a k := by
    funext ax; apply Fin.ext
    match ax with
    | ⟨0, _⟩ => exact lhs_row hd _ _
    | ⟨1, _⟩ => exact (d.lhsIdx_val_of_single hd.lc _ _).trans (contrEquiv1_symm_val d K hr hs k)
  have e2 : d.rhsIdx (ix2 a q) ((contrEquiv1 d K hr hs).symm k) = ix2 k q := by
    funext ax; apply Fin.ext
    match ax with
    | ⟨0, _⟩ => exact (d.rhsIdx_val_of_single hd.rc _ _).trans (contrEquiv1_symm_val d K hr hs k)
    | ⟨1, _⟩ => exact rhs_col hd _ _
  rw [e1, e2]

end Cert.MatmulAt

end
-- ==== Proof.KernelBody.lean ====
/-
  The transposed kernel's body at one entry of its output block.

  The body holds the batch along the columns: from the blocks `xT : [11, 32768]` (a lane block of the transposed
  input), `a1 : [32, 11]`, `c1 : [32, 1]`, `a2 : [32, 32]`, `c2 : [32, 1]`, `a3 : [3, 32]`, `c3 : [3, 1]` it stores
      `a3 · relu (a2 · relu (a1 · xT + c1) + c2) + c3`,
  the biases being columns broadcast along the lanes.  Read at entry `(o, q)` this is
      `∑ k < 32, a3 (o, k) · relu (∑ j < 32, a2 (k, j) · relu (∑ i < 11, a1 (j, i) · xT (i, q) + c1 (j, 0)) + c2 (k, 0)) + c3 (o, 0)`:
  each matrix product at an entry is the sum over its contracted axis, a broadcast column reads its row's one entry,
  and `relu` is the maximum with the constant `0`.
-/
import proofs.«123555_g2000006235729332_pallasbulk_469_5_alg».proof.Proof.Gen.KernelIdeal.Skeleton
import proofs.«123555_g2000006235729332_pallasbulk_469_5_alg».proof.Proof.MatmulAt
import Idealize.ShloMosaic.Lib.Pipeline.Value
import Idealize.ShloMosaic.Lib.ValueIdx
import Idealize.ShloMosaic.PureOps.Ideal.Laws

noncomputable section

open scoped BigOperators

namespace Cert.KernelBody

open Idealize.ShloMosaic Idealize.ShloMosaic.ValueIdx Cert.KernelIdeal Cert.KernelIdeal.Gen

variable [Cert.KernelIdeal.Facts]

/-- A column `[a, 1]` broadcast along the second axis reads, at `(i, q)`, the column's entry `(i, 0)`. -/
theorem bcast_col {α : Type} {a b : ℕ} (x : (⟨2, ![a, 1]⟩ : Shape).Idx → α)
    (h : (⟨2, ![a, 1]⟩ : Shape).Broadcasts ⟨2, ![a, b]⟩) (i : Fin a) (q : Fin b) :
    broadcastTo ⟨2, ![a, b]⟩ x h (ix2 i q) = x (ix2 i (0 : Fin 1)) :=
  broadcastTo_apply x h _ _ fun ax => by
    match ax with
    | ⟨0, _⟩ =>
      show i.val = if a = 1 then 0 else i.val
      have := i.isLt
      split <;> omega
    | ⟨1, _⟩ => rfl

/-- The three products' dimension numbers are those of a plain product. -/
theorem plain1 : Cert.MatmulAt.Plain dot_S32x11_S11x32768_S32x32768_1_0_0_1_n_n := ⟨rfl, rfl, rfl, rfl, rfl, rfl⟩
theorem plain2 : Cert.MatmulAt.Plain dot_S32x32_S32x32768_S32x32768_1_0_0_1_n_n := ⟨rfl, rfl, rfl, rfl, rfl, rfl⟩
theorem plain3 : Cert.MatmulAt.Plain dot_S3x32_S32x32768_S3x32768_1_0_0_1_n_n := ⟨rfl, rfl, rfl, rfl, rfl, rfl⟩

/-- The scalar constant `0.0` is the extended real `0`. -/
theorem zero_const : (Scalar.ofBits (F := Ideal) .f32 0x00000000#32 : EReal) = 0 := Ideal.ofBits_zero_f32

/-- The stored value at entry `(o, q)` of the output block. -/
theorem pay_at (a1 : FVec Ideal S32x11 .f32) (xT : FVec Ideal S11x32768 .f32) (c1 : FVec Ideal S32x1 .f32)
    (a2 : FVec Ideal S32x32 .f32) (c2 : FVec Ideal S32x1 .f32) (a3 : FVec Ideal S3x32 .f32) (c3 : FVec Ideal S3x1 .f32)
    (o : Fin 3) (q : Fin 32768) :
    k0_pay1 (F := Ideal) a1 xT c1 a2 c2 a3 c3 (ix2 o q)
      = ∑ k : Fin 32, a3 (ix2 o k)
          * max (∑ j : Fin 32, a2 (ix2 k j) * max (∑ i : Fin 11, a1 (ix2 j i) * xT (ix2 i q) + c1 (ix2 j 0)) 0 + c2 (ix2 k 0)) 0
        + c3 (ix2 o 0) := by
  unfold k0_pay1
  simp only [shapeCast_self, addf_apply, maximumf_apply, broadcast_apply, bcast_col,
    Cert.MatmulAt.matmul_zero_at plain3, Cert.MatmulAt.matmul_zero_at plain2, Cert.MatmulAt.matmul_zero_at plain1,
    zero_const]

end Cert.KernelBody

end
-- ==== Proof.KernelHost.lean ====
/-
  What the transposed kernel's region finds in its operand arrays: the host operations before the region, read at an
  index.

  Before the region @main transposes the input and slices and transposes each weight: the region's operand arrays are
      `xT (i, r) = x (r, i)`                      (the input, transposed),
      `a1 (j, i) = w1 (i, j)`, `c1 (j, 0) = b1 (0, j)`     for `j < 32`,
      `a2 (k, j) = w2 (j, k)`, `c2 (k, 0) = b2 (0, k)`     for `j, k < 32`,
      `a3 (o, k) = w3 (k, o)`, `c3 (o, 0) = b3 (0, o)`     for `k < 32`:
  a slice from offset `(0, 0)` reads the source at the same coordinates, a transpose at the swapped ones.
-/
import proofs.«123555_g2000006235729332_pallasbulk_469_5_alg».proof.Proof.Gen.KernelIdeal.Frame
import proofs.«123555_g2000006235729332_pallasbulk_469_5_alg».proof.Proof.Mlp
import Idealize.ShloMosaic.Lib.Pipeline.Value
import Idealize.ShloMosaic.Lib.ValueIdx
import Idealize.ShloMosaic.Lib.ValueLayout
import Idealize.ShloMosaic.Lib.StableHlo.Run

noncomputable section

namespace Cert.KernelHost

open Idealize.ShloMosaic Idealize.ShloMosaic.TcCoe Idealize.ShloMosaic.ValueIdx Idealize.SL.Sem
open Cert.KernelIdeal Cert.KernelIdeal.Gen Cert.Mlp

variable (m : (ℓ : Loc nD τ sig) → Buf (Elt Ideal) ℓ)

/-- A slice from offset `(0, 0)` reads the source at the same coordinates. -/
theorem slice00_apply {α : Type} {n0 n1 m0 m1 : ℕ} (X : (⟨2, ![n0, n1]⟩ : Shape).Idx → α)
    (h : (⟨2, ![n0, n1]⟩ : Shape).Slices ![0, 0] ⟨2, ![m0, m1]⟩) (p : Fin m0) (q : Fin m1) (p' : Fin n0) (q' : Fin n1)
    (hp : p'.val = p.val) (hq : q'.val = q.val) :
    extractStridedSlice ⟨2, ![m0, m1]⟩ ![0, 0] X h (ix2 p q) = X (ix2 p' q') :=
  extractStridedSlice_apply _ _ _ _ _ fun ax => by
    match ax with
    | ⟨0, _⟩ => show p'.val = 0 + p.val; omega
    | ⟨1, _⟩ => show q'.val = 0 + q.val; omega

/-! ## The argument arrays, as matrices -/

abbrev argX (c : Dev nD) : Mat 524288 11 := m ((c : Thread nD τ).loc main_arg0)
abbrev argW1 (c : Dev nD) : Mat 11 128 := m ((c : Thread nD τ).loc main_arg1)
abbrev argB1 (c : Dev nD) : Mat 1 128 := m ((c : Thread nD τ).loc main_arg2)
abbrev argW2 (c : Dev nD) : Mat 128 128 := m ((c : Thread nD τ).loc main_arg3)
abbrev argB2 (c : Dev nD) : Mat 1 128 := m ((c : Thread nD τ).loc main_arg4)
abbrev argW3 (c : Dev nD) : Mat 128 3 := m ((c : Thread nD τ).loc main_arg5)
abbrev argB3 (c : Dev nD) : Mat 1 3 := m ((c : Thread nD τ).loc main_arg6)

/-! ## The region's operand arrays -/

theorem xT_at (c : Dev nD) (i : Fin 11) (r : Fin 524288) :
    (V m c main_v11 : S11x524288.Idx → EReal) (ix2 i r) = argX m c (ix2 r i) := by
  have e : (V m c main_v11 : S11x524288.Idx → EReal)
      = transpose S11x524288 [1, 0] (argX m c) transposes_S524288x11_S11x524288_1_0 := by
    show StableHlo.after hostOps0 (fun b => m (c, b)) (Proc.devRef .tc main_v11) = _
    after_results
  rw [e]
  exact transpose_ix2_apply _ _ i r

theorem a1_at (c : Dev nD) (j : Fin 32) (i : Fin 11) :
    (V m c main_v1 : S32x11.Idx → EReal) (ix2 j i) = argW1 m c (ix2 i (up j)) := by
  have e : (V m c main_v1 : S32x11.Idx → EReal)
      = transpose S32x11 [1, 0] (extractStridedSlice S11x32 ![0, 0] (argW1 m c) slices_S11x128_S11x32_0_0) transposes_S11x32_S32x11_1_0 := by
    show StableHlo.after hostOps0 (fun b => m (c, b)) (Proc.devRef .tc main_v1) = _
    after_results
  rw [e]
  exact (transpose_ix2_apply _ _ j i).trans (slice00_apply _ _ i j i (up j) rfl rfl)

theorem c1_at (c : Dev nD) (j : Fin 32) :
    (V m c main_v7 : S32x1.Idx → EReal) (ix2 j (0 : Fin 1)) = argB1 m c (ix2 (0 : Fin 1) (up j)) := by
  have e : (V m c main_v7 : S32x1.Idx → EReal)
      = transpose S32x1 [1, 0] (extractStridedSlice S1x32 ![0, 0] (argB1 m c) slices_S1x128_S1x32_0_0) transposes_S1x32_S32x1_1_0 := by
    show StableHlo.after hostOps0 (fun b => m (c, b)) (Proc.devRef .tc main_v7) = _
    after_results
  rw [e]
  exact (transpose_ix2_apply _ _ j (0 : Fin 1)).trans (slice00_apply _ _ (0 : Fin 1) j (0 : Fin 1) (up j) rfl rfl)

theorem a2_at (c : Dev nD) (k j : Fin 32) :
    (V m c main_v3 : S32x32.Idx → EReal) (ix2 k j) = argW2 m c (ix2 (up j) (up k)) := by
  have e : (V m c main_v3 : S32x32.Idx → EReal)
      = transpose S32x32 [1, 0] (extractStridedSlice S32x32 ![0, 0] (argW2 m c) slices_S128x128_S32x32_0_0) transposes_S32x32_S32x32_1_0 := by
    show StableHlo.after hostOps0 (fun b => m (c, b)) (Proc.devRef .tc main_v3) = _
    after_results
  rw [e]
  exact (transpose_ix2_apply _ _ k j).trans (slice00_apply _ _ j k (up j) (up k) rfl rfl)

theorem c2_at (c : Dev nD) (k : Fin 32) :
    (V m c main_v9 : S32x1.Idx → EReal) (ix2 k (0 : Fin 1)) = argB2 m c (ix2 (0 : Fin 1) (up k)) := by
  have e : (V m c main_v9 : S32x1.Idx → EReal)
      = transpose S32x1 [1, 0] (extractStridedSlice S1x32 ![0, 0] (argB2 m c) slices_S1x128_S1x32_0_0) transposes_S1x32_S32x1_1_0 := by
    show StableHlo.after hostOps0 (fun b => m (c, b)) (Proc.devRef .tc main_v9) = _
    after_results
  rw [e]
  exact (transpose_ix2_apply _ _ k (0 : Fin 1)).trans (slice00_apply _ _ (0 : Fin 1) k (0 : Fin 1) (up k) rfl rfl)

theorem a3_at (c : Dev nD) (o : Fin 3) (k : Fin 32) :
    (V m c main_v5 : S3x32.Idx → EReal) (ix2 o k) = argW3 m c (ix2 (up k) o) := by
  have e : (V m c main_v5 : S3x32.Idx → EReal)
      = transpose S3x32 [1, 0] (extractStridedSlice S32x3 ![0, 0] (argW3 m c) slices_S128x3_S32x3_0_0) transposes_S32x3_S3x32_1_0 := by
    show StableHlo.after hostOps0 (fun b => m (c, b)) (Proc.devRef .tc main_v5) = _
    after_results
  rw [e]
  exact (transpose_ix2_apply _ _ o k).trans (slice00_apply _ _ k o (up k) o rfl rfl)

theorem c3_at (c : Dev nD) (o : Fin 3) :
    (V m c main_v10 : S3x1.Idx → EReal) (ix2 o (0 : Fin 1)) = argB3 m c (ix2 (0 : Fin 1) o) := by
  have e : (V m c main_v10 : S3x1.Idx → EReal)
      = transpose S3x1 [1, 0] (argB3 m c) transposes_S1x3_S3x1_1_0 := by
    show StableHlo.after hostOps0 (fun b => m (c, b)) (Proc.devRef .tc main_v10) = _
    after_results
  rw [e]
  exact transpose_ix2_apply _ _ o (0 : Fin 1)

end Cert.KernelHost

end
-- ==== Proof.KernelArray.lean ====
/-
  The transposed kernel's result array as one function of the argument arrays, and its run.

  The region's output array is `[3, 524288]`, written in sixteen lane blocks: point `t` holds batch rows
  `32768·t … 32768·t + 32767` along its lanes, so lane `q` of point `t` is batch row `32768·t + q` (`row`).
  At that point the body's operand blocks are: lanes `32768·t …` of the transposed input, and the six small
  operands whole.  With the operand arrays read back to the arguments, the stored value at `(o, q)` is the 32-wide
  network's output `o` for batch row `32768·t + q`; the sixteen blocks tile the array, so the array ends holding
  the network's result transposed, and the host's transpose after the region returns it as `[524288, 3]`.
-/
import proofs.«123555_g2000006235729332_pallasbulk_469_5_alg».proof.Proof.Gen.KernelIdeal.Frame
import proofs.«123555_g2000006235729332_pallasbulk_469_5_alg».proof.Proof.KernelBody
import proofs.«123555_g2000006235729332_pallasbulk_469_5_alg».proof.Proof.KernelHost
import proofs.«123555_g2000006235729332_pallasbulk_469_5_alg».proof.Proof.Mlp
import Idealize.ShloMosaic.Lib.Pipeline.Value
import Idealize.ShloMosaic.Lib.ValueIdx
import Idealize.ShloMosaic.Lib.ValueLayout
import Idealize.ShloMosaic.Lib.StableHlo.Run

noncomputable section

namespace Cert.KernelArray

open Idealize.ShloMosaic Idealize.ShloMosaic.TcCoe Idealize.ShloMosaic.ValueIdx Idealize.SL.Sem
open Idealize.ShloMosaic.Pipeline (Dat)
open Cert.KernelIdeal Cert.KernelIdeal.Gen Cert.Mlp Cert.KernelHost

variable (m : (ℓ : Loc nD τ sig) → Buf (Elt Ideal) ℓ) (ρ : Dev nD → PrngReg)

/-! ## One point's stored value, over plain blocks -/

/-- If the operand blocks are the arguments read as the host prefix lays them out — lane `q` of the input block
    being batch row `r q` — the stored value at `(o, q)` is the 32-wide network's output `o` for that row. -/
theorem point_value (xT : FVec Ideal S11x32768 .f32) (a1 : FVec Ideal S32x11 .f32) (c1 : FVec Ideal S32x1 .f32)
    (a2 : FVec Ideal S32x32 .f32) (c2 : FVec Ideal S32x1 .f32) (a3 : FVec Ideal S3x32 .f32) (c3 : FVec Ideal S3x1 .f32)
    (x : Mat 524288 11) (w1 : Mat 11 128) (b1 : Mat 1 128) (w2 : Mat 128 128) (b2 : Mat 1 128) (w3 : Mat 128 3) (b3 : Mat 1 3)
    (r : Fin 32768 → Fin 524288)
    (hx : ∀ i q, xT (ix2 i q) = x (ix2 (r q) i))
    (h1 : ∀ j i, a1 (ix2 j i) = w1 (ix2 i (up j))) (hc1 : ∀ j, c1 (ix2 j (0 : Fin 1)) = b1 (ix2 (0 : Fin 1) (up j)))
    (h2 : ∀ k j, a2 (ix2 k j) = w2 (ix2 (up j) (up k))) (hc2 : ∀ k, c2 (ix2 k (0 : Fin 1)) = b2 (ix2 (0 : Fin 1) (up k)))
    (h3 : ∀ o k, a3 (ix2 o k) = w3 (ix2 (up k) o)) (hc3 : ∀ o, c3 (ix2 o (0 : Fin 1)) = b3 (ix2 (0 : Fin 1) o))
    (o : Fin 3) (q : Fin 32768) :
    k0_pay1 (F := Ideal) a1 xT c1 a2 c2 a3 c3 (ix2 o q) = narrowAt x w1 b1 w2 b2 w3 b3 (r q) o := by
  rw [Cert.KernelBody.pay_at]
  unfold narrowAt narrow2 narrow1
  simp only [hx, h1, hc1, h2, hc2, h3, hc3]

/-! ## The grid -/

theorem hz : (![0, 0] : Fin 2 → Nat) = fun _ => 0 := funext fun a => by fin_cases a <;> rfl

theorem lt16 (t : Fin cfg0.N) : t.val < 16 := by
  have h := t.isLt
  have hN : cfg0.N = 16 := N_0
  omega

/-- The batch row that lane `q` of point `t` holds. -/
def row (t : Fin cfg0.N) (q : Fin 32768) : Fin 524288 :=
  ⟨t.val * 32768 + q.val, by have := lt16 t; have := q.isLt; omega⟩

/-- The input's and the output's blocks move along the lanes with the point. -/
theorem idx_lanes : ∀ t : Fin cfg0.N, win0_0.index t (0 : Fin 2) = 0 ∧ win0_0.index t (1 : Fin 2) = t.val
    ∧ win0_7.index t (0 : Fin 2) = 0 ∧ win0_7.index t (1 : Fin 2) = t.val :=
  (by decide +kernel : ∀ t : Fin grid0.N, _)

/-- The six small operands are fetched whole at every point. -/
theorem idx_whole : ∀ t : Fin cfg0.N,
    (win0_1.index t (0 : Fin 2) = 0 ∧ win0_1.index t (1 : Fin 2) = 0) ∧ (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) ∧ (win0_6.index t (0 : Fin 2) = 0 ∧ win0_6.index t (1 : Fin 2) = 0) :=
  (by decide +kernel : ∀ t : Fin grid0.N, _)

/-! ## The operand blocks at a point, read back to the arguments -/

theorem blk_x (c : Dev nD) (t : Fin cfg0.N) (i : Fin 11) (q : Fin 32768) :
    (iblk m c 0 t : S11x32768.Idx → EReal) (ix2 i q) = argX m c (ix2 (row t q) i) := by
  obtain ⟨e0, e1, -, -⟩ := idx_lanes t
  have hE : ((cfg0.win 0).blk t).view.emb (ix2 i q : S11x32768.Idx) = (ix2 i (row t q) : S11x524288.Idx) := by
    funext a; apply Fin.ext
    match a with
    | ⟨0, _⟩ => show win0_0.index t (0 : Fin 2) * 11 + 1 * i.val = i.val; rw [e0]; omega
    | ⟨1, _⟩ => show win0_0.index t (1 : Fin 2) * 32768 + 1 * q.val = t.val * 32768 + q.val; rw [e1]; omega
  unfold iblk
  rw [View.read_apply, hE]
  exact xT_at m c i (row t q)

theorem blk_a1 (c : Dev nD) (t : Fin cfg0.N) (j : Fin 32) (i : Fin 11) :
    (iblk m c 1 t : S32x11.Idx → EReal) (ix2 j i) = argW1 m c (ix2 i (up j)) := by
  obtain ⟨⟨e0, e1⟩, -⟩ := idx_whole t
  have hE : ((cfg0.win 1).blk t).view.emb (ix2 j i : S32x11.Idx) = (ix2 j i : S32x11.Idx) := by
    funext a; apply Fin.ext
    match a with
    | ⟨0, _⟩ => show win0_1.index t (0 : Fin 2) * 32 + 1 * j.val = j.val; rw [e0]; omega
    | ⟨1, _⟩ => show win0_1.index t (1 : Fin 2) * 11 + 1 * i.val = i.val; rw [e1]; omega
  unfold iblk
  rw [View.read_apply, hE]
  exact a1_at m c j i

theorem blk_c1 (c : Dev nD) (t : Fin cfg0.N) (j : Fin 32) :
    (iblk m c 2 t : S32x1.Idx → EReal) (ix2 j (0 : Fin 1)) = argB1 m c (ix2 (0 : Fin 1) (up j)) := by
  obtain ⟨-, ⟨e0, e1⟩, -⟩ := idx_whole t
  have hE : ((cfg0.win 2).blk t).view.emb (ix2 j (0 : Fin 1) : S32x1.Idx) = (ix2 j (0 : Fin 1) : S32x1.Idx) := by
    funext a; apply Fin.ext
    match a with
    | ⟨0, _⟩ => show win0_2.index t (0 : Fin 2) * 32 + 1 * j.val = j.val; rw [e0]; omega
    | ⟨1, _⟩ => show win0_2.index t (1 : Fin 2) * 1 + 1 * (0 : Fin 1).val = (0 : Fin 1).val; rw [e1]; rfl
  unfold iblk
  rw [View.read_apply, hE]
  exact c1_at m c j

theorem blk_a2 (c : Dev nD) (t : Fin cfg0.N) (k j : Fin 32) :
    (iblk m c 3 t : S32x32.Idx → EReal) (ix2 k j) = argW2 m c (ix2 (up j) (up k)) := by
  obtain ⟨-, -, ⟨e0, e1⟩, -⟩ := idx_whole t
  have hE : ((cfg0.win 3).blk t).view.emb (ix2 k j : S32x32.Idx) = (ix2 k j : S32x32.Idx) := by
    funext a; apply Fin.ext
    match a with
    | ⟨0, _⟩ => show win0_3.index t (0 : Fin 2) * 32 + 1 * k.val = k.val; rw [e0]; omega
    | ⟨1, _⟩ => show win0_3.index t (1 : Fin 2) * 32 + 1 * j.val = j.val; rw [e1]; omega
  unfold iblk
  rw [View.read_apply, hE]
  exact a2_at m c k j

theorem blk_c2 (c : Dev nD) (t : Fin cfg0.N) (k : Fin 32) :
    (iblk m c 4 t : S32x1.Idx → EReal) (ix2 k (0 : Fin 1)) = argB2 m c (ix2 (0 : Fin 1) (up k)) := by
  obtain ⟨-, -, -, ⟨e0, e1⟩, -⟩ := idx_whole t
  have hE : ((cfg0.win 4).blk t).view.emb (ix2 k (0 : Fin 1) : S32x1.Idx) = (ix2 k (0 : Fin 1) : S32x1.Idx) := by
    funext a; apply Fin.ext
    match a with
    | ⟨0, _⟩ => show win0_4.index t (0 : Fin 2) * 32 + 1 * k.val = k.val; rw [e0]; omega
    | ⟨1, _⟩ => show win0_4.index t (1 : Fin 2) * 1 + 1 * (0 : Fin 1).val = (0 : Fin 1).val; rw [e1]; rfl
  unfold iblk
  rw [View.read_apply, hE]
  exact c2_at m c k

theorem blk_a3 (c : Dev nD) (t : Fin cfg0.N) (o : Fin 3) (k : Fin 32) :
    (iblk m c 5 t : S3x32.Idx → EReal) (ix2 o k) = argW3 m c (ix2 (up k) o) := by
  obtain ⟨-, -, -, -, ⟨e0, e1⟩, -⟩ := idx_whole t
  have hE : ((cfg0.win 5).blk t).view.emb (ix2 o k : S3x32.Idx) = (ix2 o k : S3x32.Idx) := by
    funext a; apply Fin.ext
    match a with
    | ⟨0, _⟩ => show win0_5.index t (0 : Fin 2) * 3 + 1 * o.val = o.val; rw [e0]; omega
    | ⟨1, _⟩ => show win0_5.index t (1 : Fin 2) * 32 + 1 * k.val = k.val; rw [e1]; omega
  unfold iblk
  rw [View.read_apply, hE]
  exact a3_at m c o k

theorem blk_c3 (c : Dev nD) (t : Fin cfg0.N) (o : Fin 3) :
    (iblk m c 6 t : S3x1.Idx → EReal) (ix2 o (0 : Fin 1)) = argB3 m c (ix2 (0 : Fin 1) o) := by
  obtain ⟨-, -, -, -, -, ⟨e0, e1⟩⟩ := idx_whole t
  have hE : ((cfg0.win 6).blk t).view.emb (ix2 o (0 : Fin 1) : S3x1.Idx) = (ix2 o (0 : Fin 1) : S3x1.Idx) := by
    funext a; apply Fin.ext
    match a with
    | ⟨0, _⟩ => show win0_6.index t (0 : Fin 2) * 3 + 1 * o.val = o.val; rw [e0]; omega
    | ⟨1, _⟩ => show win0_6.index t (1 : Fin 2) * 1 + 1 * (0 : Fin 1).val = (0 : Fin 1).val; rw [e1]; rfl
  unfold iblk
  rw [View.read_apply, hE]
  exact c3_at m c o

/-! ## The region's output array -/

/-- The 32-wide network's result, transposed: what the region's `[3, 524288]` output array ends holding. -/
def resultT (c : Dev nD) : S3x524288.Idx → EReal := fun i =>
  narrowAt (argX m c) (argW1 m c) (argB1 m c) (argW2 m c) (argB2 m c) (argW3 m c) (argB3 m c) (i 1) (i 0)

/-- Point `t` writes back lanes `32768·t …` of `resultT`. -/
theorem flushed_eq (c : Dev nD) (t : Fin cfg0.N) :
    (dats m 0 c).flushed 7 t = ((cfg0.win 7).blk t).view.read (Elt Ideal) (resultT m c) := by
  show (cfg0.win 7).cut (grid0.coords t) ((dats m 0 c).after 7 t) = _
  rw [after0_7]
  unfold out0_7
  rw [View.canon_unit_zero hz]
  simp only [View.ld_unit_zero (S := S32x11) hz, View.ld_unit_zero (S := S11x32768) hz, View.ld_unit_zero (S := S32x1) hz,
    View.ld_unit_zero (S := S32x32) hz, View.ld_unit_zero (S := S3x32) hz, View.ld_unit_zero (S := S3x1) hz]
  funext y
  obtain ⟨o, q, rfl⟩ : ∃ (o : Fin 3) (q : Fin 32768), y = ix2 o q := ⟨y 0, y 1, eq_ix2 (n0 := 3) (n1 := 32768) y⟩
  obtain ⟨-, -, e0, e1⟩ := idx_lanes t
  have hE : ((cfg0.win 7).blk t).view.emb (ix2 o q : S3x32768.Idx) = (ix2 o (row t q) : S3x524288.Idx) := by
    funext a; apply Fin.ext
    match a with
    | ⟨0, _⟩ => show win0_7.index t (0 : Fin 2) * 3 + 1 * o.val = o.val; rw [e0]; omega
    | ⟨1, _⟩ => show win0_7.index t (1 : Fin 2) * 32768 + 1 * q.val = t.val * 32768 + q.val; rw [e1]; omega
  rw [View.read_apply, hE]
  exact point_value (iblk m c 0 t) (iblk m c 1 t) (iblk m c 2 t) (iblk m c 3 t) (iblk m c 4 t) (iblk m c 5 t) (iblk m c 6 t)
    (argX m c) (argW1 m c) (argB1 m c) (argW2 m c) (argB2 m c) (argW3 m c) (argB3 m c) (row t)
    (fun i q => blk_x m c t i q) (fun j i => blk_a1 m c t j i) (fun j => blk_c1 m c t j)
    (fun k j => blk_a2 m c t k j) (fun k => blk_c2 m c t k) (fun o k => blk_a3 m c t o k) (fun o => blk_c3 m c t o) o q

/-- The sixteen lane blocks tile the array: index `(o, n)` lies in the block of point `n / 32768`. -/
theorem covered (i : S3x524288.Idx) :
    ∃ t : Fin cfg0.N, (cfg0.win 7).flush t = true ∧ i ∈ ((cfg0.win 7).blk t).view.set := by
  have h0 : (i 0).val < 3 := idx2_lt0 i
  have h1 : (i 1).val < 524288 := idx2_lt1 i
  have hN : cfg0.N = 16 := N_0
  let t : Fin cfg0.N := ⟨(i 1).val / 32768, by omega⟩
  obtain ⟨-, -, e0, e1⟩ := idx_lanes t
  have e1' : win0_7.index t (1 : Fin 2) = (i 1).val / 32768 := e1
  refine ⟨t, flush0_7 t, ?_⟩
  show i ∈ ((View.whole main_v12).slice (win0_7.rect t)).set
  rw [View.set_slice_whole, Rect.mem_set_unit]
  intro a
  match a with
  | ⟨0, _⟩ =>
    show win0_7.index t (0 : Fin 2) * 3 ≤ (i 0).val ∧ (i 0).val < win0_7.index t (0 : Fin 2) * 3 + 3
    rw [e0]; omega
  | ⟨1, _⟩ =>
    show win0_7.index t (1 : Fin 2) * 32768 ≤ (i 1).val ∧ (i 1).val < win0_7.index t (1 : Fin 2) * 32768 + 32768
    rw [e1']; omega

/-- After the region its output array holds `resultT`. -/
theorem final (c : Dev nD) : (dats m 0 c).arrAt 7 cfg0.N = resultT m c :=
  (dats m 0 c).arrAt_eq_of_cover 7 (resultT m c) (fun t _ => flushed_eq m c t) covered

/-! ## The host's transpose after the region, and the run -/

/-- The program's result: the 32-wide network of the argument arrays. -/
abbrev result (c : Dev nD) : Mat 524288 3 :=
  narrow (argX m c) (argW1 m c) (argB1 m c) (argW2 m c) (argB2 m c) (argW3 m c) (argB3 m c)

/-- The result buffer after the host's last line: the region's output array, transposed back. -/
theorem tail_eq (c : Dev nD) :
    Pipeline.afterTail₀ cfgs (dats m) 0 (V0 m) [hostOps1] c main_v13 = result m c := by
  unfold Pipeline.afterTail₀
  show StableHlo.after hostOps1 _ (Proc.devRef .tc main_v13) = _
  after_results
  have hW : Pipeline.withArrays (cfgs 0).spec c (V0 m c) (fun w => (dats m 0 c).arrAt w (cfgs 0).N) (Proc.tc.devRef main_v12)
      = resultT m c :=
    (Pipeline.withArrays_arr spec0 launch0.win.arr_inj c _ _ 7).trans (final m c)
  rw [hW]
  funext i
  obtain ⟨r, o, rfl⟩ : ∃ (r : Fin 524288) (o : Fin 3), i = ix2 r o := ⟨i 0, i 1, eq_ix2 (n0 := 524288) (n1 := 3) i⟩
  exact transpose_ix2_apply (resultT m c) _ r o

/-- THE RUN, READ: every weakly fair execution of the program terminates with the result buffer at the 32-wide network
    of the argument arrays, and the argument arrays unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelArray

end
-- ==== Proof.RefBody.lean ====
/-
  The row-major network's body at one entry of its output block.

  The body holds the batch along the rows: from the blocks `xb : [4096, 11]` (a block of rows of the input),
  `w1 : [11, 128]`, `b1 : [1, 128]`, `w2 : [128, 128]`, `b2 : [1, 128]`, `w3 : [128, 3]`, `b3 : [1, 3]` it stores
      `relu (relu (xb · w1 + b1) · w2 + b2) · w3 + b3`,
  the biases being rows broadcast down the block.  Read at entry `(p, o)` this is
      `∑ k < 128, relu (∑ j < 128, relu (∑ i < 11, xb (p, i) · w1 (i, j) + b1 (0, j)) · w2 (j, k) + b2 (0, k)) · w3 (k, o) + b3 (0, o)`:
  each matrix product into a zero accumulator is, at an entry, the sum over its contracted axis; a broadcast row reads
  its column's one entry; and `relu` is the maximum with the constant `0`.
-/
import proofs.«123555_g2000006235729332_pallasbulk_469_5_alg».proof.Proof.Gen.ReferenceIdeal.Skeleton
import proofs.«123555_g2000006235729332_pallasbulk_469_5_alg».proof.Proof.MatmulAt
import Idealize.ShloMosaic.Lib.Pipeline.Value
import Idealize.ShloMosaic.Lib.ValueIdx
import Idealize.ShloMosaic.PureOps.Ideal.Laws

noncomputable section

open scoped BigOperators

namespace Cert.RefBody

open Idealize.ShloMosaic Idealize.ShloMosaic.ValueIdx Cert.ReferenceIdeal Cert.ReferenceIdeal.Gen

variable [Cert.ReferenceIdeal.Facts]

/-- A row `[1, b]` broadcast along the first axis reads, at `(i, q)`, the row's entry `(0, q)`: the row's first axis
    has extent one, so its coordinate there is `0`; its second axis is the result's second axis. -/
theorem bcast_row {α : Type} {a b : ℕ} (x : (⟨2, ![1, b]⟩ : Shape).Idx → α)
    (h : (⟨2, ![1, b]⟩ : Shape).Broadcasts ⟨2, ![a, b]⟩) (i : Fin a) (q : Fin b) :
    broadcastTo ⟨2, ![a, b]⟩ x h (ix2 i q) = x (ix2 (0 : Fin 1) q) :=
  broadcastTo_apply x h _ _ fun ax => by
    match ax with
    | ⟨0, _⟩ => rfl
    | ⟨1, _⟩ =>
      show q.val = if b = 1 then 0 else q.val
      have := q.isLt
      split <;> omega

/-- Each of the three products has the dimension numbers of a plain product `[M, K] × [K, N]`. -/
theorem plain_in : Cert.MatmulAt.Plain dot_S4096x11_S11x128_S4096x128_1_0_0_1_n_n := ⟨rfl, rfl, rfl, rfl, rfl, rfl⟩
theorem plain_mid : Cert.MatmulAt.Plain dot_S4096x128_S128x128_S4096x128_1_0_0_1_n_n := ⟨rfl, rfl, rfl, rfl, rfl, rfl⟩
theorem plain_out : Cert.MatmulAt.Plain dot_S4096x128_S128x3_S4096x3_1_0_0_1_n_n := ⟨rfl, rfl, rfl, rfl, rfl, rfl⟩

/-- The scalar constant `0.0` the `relu`s compare against is the extended real `0`. -/
theorem relu_const : (Scalar.ofBits (F := Ideal) .f32 0x00000000#32 : EReal) = 0 := Ideal.ofBits_zero_f32

/-- The stored value at entry `(p, o)` of the output block. -/
theorem pay_at (xb : FVec Ideal S4096x11 .f32) (w1 : FVec Ideal S11x128 .f32) (b1 : FVec Ideal S1x128 .f32)
    (w2 : FVec Ideal S128x128 .f32) (b2 : FVec Ideal S1x128 .f32) (w3 : FVec Ideal S128x3 .f32) (b3 : FVec Ideal S1x3 .f32)
    (p : Fin 4096) (o : Fin 3) :
    k0_pay1 (F := Ideal) xb w1 b1 w2 b2 w3 b3 (ix2 p o)
      = ∑ k : Fin 128, max (∑ j : Fin 128, max (∑ i : Fin 11, xb (ix2 p i) * w1 (ix2 i j) + b1 (ix2 0 j)) 0 * w2 (ix2 j k) + b2 (ix2 0 k)) 0 * w3 (ix2 k o) + b3 (ix2 0 o) := by
  unfold k0_pay1
  simp only [addf_apply, maximumf_apply, broadcast_apply, bcast_row,
    Cert.MatmulAt.matmul_zero_at plain_out, Cert.MatmulAt.matmul_zero_at plain_mid, Cert.MatmulAt.matmul_zero_at plain_in,
    relu_const]

end Cert.RefBody

end
-- ==== Proof.RefArray.lean ====
/-
  The row-major network's result array as one function of its argument arrays, and its run.

  The program cuts the input `x : [524288, 11]` into 128 blocks of 4096 rows and, at grid point `t`, computes from block
  `t` of `x` and the whole of `w1, b1, w2, b2, w3, b3` block `t` (rows `4096 t … 4096 t + 4095`, all 3 columns) of the
  result.  Entry `(p, o)` of what point `t` writes is the 128-wide network at row `4096 t + p`, column `o`: the body at
  an entry is the three nested sums of `RefBody.pay_at`, entry `(p, i)` of the input's block is entry `(4096 t + p, i)`
  of `x`, and every other window's block is its whole array.  So point `t` writes block `t` of ONE array, `Mlp.wide` of
  the arguments; the 128 blocks cover the `[524288, 3]` result (row `r` lies in block `r / 4096`); hence the result array
  ends holding `Mlp.wide` of the arguments, which the run leaves unchanged.
-/
import proofs.«123555_g2000006235729332_pallasbulk_469_5_alg».proof.Proof.Gen.ReferenceIdeal.Value
import proofs.«123555_g2000006235729332_pallasbulk_469_5_alg».proof.Proof.RefBody
import proofs.«123555_g2000006235729332_pallasbulk_469_5_alg».proof.Proof.Mlp
import Idealize.ShloMosaic.Lib.Pipeline.Value
import Idealize.ShloMosaic.Lib.ValueIdx

noncomputable section

namespace Cert.RefArray

open Idealize.ShloMosaic Idealize.ShloMosaic.TcCoe Idealize.ShloMosaic.ValueIdx Idealize.SL.Sem
open Idealize.ShloMosaic.Pipeline (Dat)
open Cert.ReferenceIdeal Cert.ReferenceIdeal.Gen Cert.Mlp

variable (m : (ℓ : Loc nD τ sig) → Buf (Elt Ideal) ℓ) (ρ : Dev nD → PrngReg)

/-- The result array: the 128-wide network of the argument arrays. -/
abbrev result (c : Dev nD) : Mat 524288 3 :=
  wide (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The body at an entry, over blocks that are rows of the arrays -/

/-- The offsets `[0, 0]` are zero on every axis. -/
theorem zero_off : (![0, 0] : Fin 2 → Nat) = fun _ => 0 :=
  funext fun a => match a with | ⟨0, _⟩ => rfl | ⟨1, _⟩ => rfl

/-- If the input block's row `p` is row `row p` of `x` and the other blocks are the whole weight and bias arrays, the body
    at entry `(p, o)` is the 128-wide network of the arrays at row `row p`, column `o`. -/
theorem point_eq (xb : FVec Ideal S4096x11 .f32) (w1b : FVec Ideal S11x128 .f32) (b1b : FVec Ideal S1x128 .f32)
    (w2b : FVec Ideal S128x128 .f32) (b2b : FVec Ideal S1x128 .f32) (w3b : FVec Ideal S128x3 .f32) (b3b : FVec Ideal S1x3 .f32)
    (x : Mat 524288 11) (w1 : Mat 11 128) (b1 : Mat 1 128) (w2 : Mat 128 128) (b2 : Mat 1 128) (w3 : Mat 128 3) (b3 : Mat 1 3)
    (row : Fin 4096 → Fin 524288)
    (hx : ∀ p i, xb (ix2 p i) = x (ix2 (row p) i))
    (hw1 : ∀ i j, w1b (ix2 i j) = w1 (ix2 i j)) (hb1 : ∀ z j, b1b (ix2 z j) = b1 (ix2 z j))
    (hw2 : ∀ j k, w2b (ix2 j k) = w2 (ix2 j k)) (hb2 : ∀ z k, b2b (ix2 z k) = b2 (ix2 z k))
    (hw3 : ∀ k o, w3b (ix2 k o) = w3 (ix2 k o)) (hb3 : ∀ z o, b3b (ix2 z o) = b3 (ix2 z o))
    (p : Fin 4096) (o : Fin 3) :
    k0_pay1 (F := Ideal) xb w1b b1b w2b b2b w3b b3b (ix2 p o) = wideAt x w1 b1 w2 b2 w3 b3 (row p) o := by
  rw [Cert.RefBody.pay_at]
  unfold wideAt wide2 wide1
  simp only [hx, hw1, hb1, hw2, hb2, hw3, hb3]

/-! ## The block indices over the grid -/

/-- The input's block index at point `t` is `t` on the row axis and zero on the column axis. -/
theorem idx_x : ∀ t : Fin cfg0.N, win0_0.index t 0 = t.val ∧ win0_0.index t 1 = 0 :=
  (by decide +kernel : ∀ t : Fin grid0.N, win0_0.index t 0 = t.val ∧ win0_0.index t 1 = 0)

/-- So is the result's. -/
theorem idx_out : ∀ t : Fin cfg0.N, win0_7.index t 0 = t.val ∧ win0_7.index t 1 = 0 :=
  (by decide +kernel : ∀ t : Fin grid0.N, win0_7.index t 0 = t.val ∧ win0_7.index t 1 = 0)

/-- Each weight's and bias's block index is zero on both axes at every point. -/
theorem idx_w1 : ∀ t : Fin cfg0.N, win0_1.index t 0 = 0 ∧ win0_1.index t 1 = 0 :=
  (by decide +kernel : ∀ t : Fin grid0.N, win0_1.index t 0 = 0 ∧ win0_1.index t 1 = 0)
theorem idx_b1 : ∀ t : Fin cfg0.N, win0_2.index t 0 = 0 ∧ win0_2.index t 1 = 0 :=
  (by decide +kernel : ∀ t : Fin grid0.N, win0_2.index t 0 = 0 ∧ win0_2.index t 1 = 0)
theorem idx_w2 : ∀ t : Fin cfg0.N, win0_3.index t 0 = 0 ∧ win0_3.index t 1 = 0 :=
  (by decide +kernel : ∀ t : Fin grid0.N, win0_3.index t 0 = 0 ∧ win0_3.index t 1 = 0)
theorem idx_b2 : ∀ t : Fin cfg0.N, win0_4.index t 0 = 0 ∧ win0_4.index t 1 = 0 :=
  (by decide +kernel : ∀ t : Fin grid0.N, win0_4.index t 0 = 0 ∧ win0_4.index t 1 = 0)
theorem idx_w3 : ∀ t : Fin cfg0.N, win0_5.index t 0 = 0 ∧ win0_5.index t 1 = 0 :=
  (by decide +kernel : ∀ t : Fin grid0.N, win0_5.index t 0 = 0 ∧ win0_5.index t 1 = 0)
theorem idx_b3 : ∀ t : Fin cfg0.N, win0_6.index t 0 = 0 ∧ win0_6.index t 1 = 0 :=
  (by decide +kernel : ∀ t : Fin grid0.N, win0_6.index t 0 = 0 ∧ win0_6.index t 1 = 0)

/-- A grid point is below 128. -/
theorem point_lt (t : Fin cfg0.N) : t.val < 128 :=
  lt_of_lt_of_eq t.isLt (N_0 : cfg0.N = 128)

/-- Row `p` of block `t` is row `4096 t + p` of the array. -/
def rowOf (t : Fin cfg0.N) (p : Fin 4096) : Fin 524288 :=
  ⟨4096 * t.val + p.val, by have := point_lt t; have := p.isLt; omega⟩

/-! ## Each input block at an entry

A block's coordinate on an axis is the block index times the block's extent plus the coordinate inside the block. -/

/-- Entry `(p, i)` of the input's block at point `t` is entry `(4096 t + p, i)` of the input array. -/
theorem xblk_at (c : Dev nD) (t : Fin cfg0.N) (p : Fin 4096) (i : Fin 11) :
    (iblk m c 0 t : Vec Ideal S4096x11 .f32) (ix2 p i)
      = (m ((c : Thread nD τ).loc main_arg0) : S524288x11.Idx → Elt Ideal .f32) (ix2 (rowOf t p) i) := by
  unfold iblk
  rw [View.read_apply]
  show V m c main_arg0 _ = m (c.tc.loc main_arg0) _
  unfold V
  congr 1
  funext a
  apply Fin.ext
  match a with
  | ⟨0, _⟩ => show win0_0.index t 0 * 4096 + 1 * p.val = 4096 * t.val + p.val; rw [(idx_x t).1]; omega
  | ⟨1, _⟩ => show win0_0.index t 1 * 11 + 1 * i.val = i.val; rw [(idx_x t).2]; omega

/-- The first layer's weights' block is the whole array at every point. -/
theorem w1blk_at (c : Dev nD) (t : Fin cfg0.N) (i : Fin 11) (j : Fin 128) :
    (iblk m c 1 t : Vec Ideal S11x128 .f32) (ix2 i j)
      = (m ((c : Thread nD τ).loc main_arg1) : S11x128.Idx → Elt Ideal .f32) (ix2 i j) := by
  unfold iblk
  rw [View.read_apply]
  show V m c main_arg1 _ = m (c.tc.loc main_arg1) _
  unfold V
  congr 1
  funext a
  apply Fin.ext
  match a with
  | ⟨0, _⟩ => show win0_1.index t 0 * 11 + 1 * i.val = i.val; rw [(idx_w1 t).1]; omega
  | ⟨1, _⟩ => show win0_1.index t 1 * 128 + 1 * j.val = j.val; rw [(idx_w1 t).2]; omega

/-- The first layer's bias's block is the whole row. -/
theorem b1blk_at (c : Dev nD) (t : Fin cfg0.N) (z : Fin 1) (j : Fin 128) :
    (iblk m c 2 t : Vec Ideal S1x128 .f32) (ix2 z j)
      = (m ((c : Thread nD τ).loc main_arg2) : S1x128.Idx → Elt Ideal .f32) (ix2 z j) := by
  unfold iblk
  rw [View.read_apply]
  show V m c main_arg2 _ = m (c.tc.loc main_arg2) _
  unfold V
  congr 1
  funext a
  apply Fin.ext
  match a with
  | ⟨0, _⟩ => show win0_2.index t 0 * 1 + 1 * z.val = z.val; rw [(idx_b1 t).1]; omega
  | ⟨1, _⟩ => show win0_2.index t 1 * 128 + 1 * j.val = j.val; rw [(idx_b1 t).2]; omega

/-- The second layer's weights' block is the whole array. -/
theorem w2blk_at (c : Dev nD) (t : Fin cfg0.N) (j : Fin 128) (k : Fin 128) :
    (iblk m c 3 t : Vec Ideal S128x128 .f32) (ix2 j k)
      = (m ((c : Thread nD τ).loc main_arg3) : S128x128.Idx → Elt Ideal .f32) (ix2 j k) := by
  unfold iblk
  rw [View.read_apply]
  show V m c main_arg3 _ = m (c.tc.loc main_arg3) _
  unfold V
  congr 1
  funext a
  apply Fin.ext
  match a with
  | ⟨0, _⟩ => show win0_3.index t 0 * 128 + 1 * j.val = j.val; rw [(idx_w2 t).1]; omega
  | ⟨1, _⟩ => show win0_3.index t 1 * 128 + 1 * k.val = k.val; rw [(idx_w2 t).2]; omega

/-- The second layer's bias's block is the whole row. -/
theorem b2blk_at (c : Dev nD) (t : Fin cfg0.N) (z : Fin 1) (k : Fin 128) :
    (iblk m c 4 t : Vec Ideal S1x128 .f32) (ix2 z k)
      = (m ((c : Thread nD τ).loc main_arg4) : S1x128.Idx → Elt Ideal .f32) (ix2 z k) := by
  unfold iblk
  rw [View.read_apply]
  show V m c main_arg4 _ = m (c.tc.loc main_arg4) _
  unfold V
  congr 1
  funext a
  apply Fin.ext
  match a with
  | ⟨0, _⟩ => show win0_4.index t 0 * 1 + 1 * z.val = z.val; rw [(idx_b2 t).1]; omega
  | ⟨1, _⟩ => show win0_4.index t 1 * 128 + 1 * k.val = k.val; rw [(idx_b2 t).2]; omega

/-- The output layer's weights' block is the whole array. -/
theorem w3blk_at (c : Dev nD) (t : Fin cfg0.N) (k : Fin 128) (o : Fin 3) :
    (iblk m c 5 t : Vec Ideal S128x3 .f32) (ix2 k o)
      = (m ((c : Thread nD τ).loc main_arg5) : S128x3.Idx → Elt Ideal .f32) (ix2 k o) := by
  unfold iblk
  rw [View.read_apply]
  show V m c main_arg5 _ = m (c.tc.loc main_arg5) _
  unfold V
  congr 1
  funext a
  apply Fin.ext
  match a with
  | ⟨0, _⟩ => show win0_5.index t 0 * 128 + 1 * k.val = k.val; rw [(idx_w3 t).1]; omega
  | ⟨1, _⟩ => show win0_5.index t 1 * 3 + 1 * o.val = o.val; rw [(idx_w3 t).2]; omega

/-- The output layer's bias's block is the whole row. -/
theorem b3blk_at (c : Dev nD) (t : Fin cfg0.N) (z : Fin 1) (o : Fin 3) :
    (iblk m c 6 t : Vec Ideal S1x3 .f32) (ix2 z o)
      = (m ((c : Thread nD τ).loc main_arg6) : S1x3.Idx → Elt Ideal .f32) (ix2 z o) := by
  unfold iblk
  rw [View.read_apply]
  show V m c main_arg6 _ = m (c.tc.loc main_arg6) _
  unfold V
  congr 1
  funext a
  apply Fin.ext
  match a with
  | ⟨0, _⟩ => show win0_6.index t 0 * 1 + 1 * z.val = z.val; rw [(idx_b3 t).1]; omega
  | ⟨1, _⟩ => show win0_6.index t 1 * 3 + 1 * o.val = o.val; rw [(idx_b3 t).2]; omega

/-! ## What a point writes, and the whole array -/

/-- Entry `(p, o)` of the result's block at point `t` sits at `(4096 t + p, o)` of the result array. -/
theorem out_emb (t : Fin cfg0.N) (p : Fin 4096) (o : Fin 3) :
    (((cfg0.win 7).blk t).view.emb (ix2 p o) : S524288x3.Idx) = ix2 (rowOf t p) o := by
  funext a
  apply Fin.ext
  match a with
  | ⟨0, _⟩ => show win0_7.index t 0 * 4096 + 1 * p.val = 4096 * t.val + p.val; rw [(idx_out t).1]; omega
  | ⟨1, _⟩ => show win0_7.index t 1 * 3 + 1 * o.val = o.val; rw [(idx_out t).2]; omega

/-- What point `t` writes back is block `t` of the result array. -/
theorem flushed_eq (c : Dev nD) (t : Fin cfg0.N) :
    (dats m 0 c).flushed 7 t = ((cfg0.win 7).blk t).view.read (Elt Ideal) (result m c) := by
  rw [Cert.ReferenceIdeal.Value.flushed7]
  unfold out0_7
  rw [View.canon_unit_zero zero_off]
  simp only [View.ld_unit_zero (S := S4096x11) zero_off, View.ld_unit_zero (S := S11x128) zero_off,
    View.ld_unit_zero (S := S1x128) zero_off, View.ld_unit_zero (S := S128x128) zero_off,
    View.ld_unit_zero (S := S128x3) zero_off, View.ld_unit_zero (S := S1x3) zero_off]
  funext y
  obtain ⟨p, o, rfl⟩ : ∃ (p : Fin 4096) (o : Fin 3), y = ix2 p o := ⟨y 0, y 1, eq_ix2 y⟩
  show k0_pay1 (F := Ideal) (iblk m c 0 t) (iblk m c 1 t) (iblk m c 2 t) (iblk m c 3 t) (iblk m c 4 t) (iblk m c 5 t)
      (iblk m c 6 t) (ix2 p o) = result m c (((cfg0.win 7).blk t).view.emb (ix2 p o))
  rw [out_emb t p o]
  exact point_eq (iblk m c 0 t) (iblk m c 1 t) (iblk m c 2 t) (iblk m c 3 t) (iblk m c 4 t) (iblk m c 5 t) (iblk m c 6 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (rowOf t) (xblk_at m c t) (w1blk_at m c t) (b1blk_at m c t) (w2blk_at m c t)
    (b2blk_at m c t) (w3blk_at m c t) (b3blk_at m c t) p o

/-- An index whose row lies among rows `4096 t … 4096 t + 4095` is in point `t`'s block of the result array. -/
theorem mem_block (t : Fin cfg0.N) (i : S524288x3.Idx) (hlo : 4096 * t.val ≤ (i 0).val) (hhi : (i 0).val < 4096 * t.val + 4096) :
    i ∈ ((cfg0.win 7).blk t).view.set := by
  show i ∈ ((View.whole main_v0).slice (win0_7.rect t)).set
  rw [View.set_slice_whole, Rect.mem_set_unit]
  intro a
  have h1 : (i 1).val < 3 := (i 1).isLt
  match a with
  | ⟨0, _⟩ =>
    show win0_7.index t 0 * 4096 ≤ (i 0).val ∧ (i 0).val < win0_7.index t 0 * 4096 + 4096
    rw [(idx_out t).1]; omega
  | ⟨1, _⟩ =>
    show win0_7.index t 1 * 3 ≤ (i 1).val ∧ (i 1).val < win0_7.index t 1 * 3 + 3
    rw [(idx_out t).2]; omega

/-- Every index of the result array lies in the block of the point its row falls in: row `r` in block `r / 4096`. -/
theorem cover (i : S524288x3.Idx) :
    ∃ t : Fin cfg0.N, (cfg0.win 7).flush t = true ∧ i ∈ ((cfg0.win 7).blk t).view.set := by
  have h0 : (i 0).val < 524288 := (i 0).isLt
  have hN : cfg0.N = 128 := N_0
  refine ⟨⟨(i 0).val / 4096, by rw [hN]; omega⟩, flush0_7 _, mem_block _ i ?_ ?_⟩
  · show 4096 * ((i 0).val / 4096) ≤ (i 0).val
    omega
  · show (i 0).val < 4096 * ((i 0).val / 4096) + 4096
    omega

/-- The result array after the run is the 128-wide network of the argument arrays. -/
theorem final (c : Dev nD) : (dats m 0 c).arrAt 7 cfg0.N = result m c :=
  (dats m 0 c).arrAt_eq_of_cover 7 (result m c) (fun t _ => flushed_eq m c t) cover

/-! ## The run -/

/-- The run, read: the result array at the 128-wide network of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.ReferenceIdeal.Value.run_blocks m ρ)

end Cert.RefArray

end
-- ==== Proof.lean ====
/-
  A three-layer perceptron computed two ways, equal over the extended reals when the padded hidden units carry zero
  weights.

  Both programs map `x : [524288, 11]` through `relu (· w1 + b1)`, `relu (· w2 + b2)` and `· w3 + b3` to `[524288, 3]`, the
  hidden layers being stored 128 wide.

  * The reference runs one kernel over 128 row blocks of the batch, row-major, over all 128 hidden units: its result
    array is `Mlp.wide` of the arguments (Proof/RefBody.lean: the body at an entry; Proof/RefArray.lean: the blocks
    tile the array).
  * The kernel first slices every weight to its first 32 hidden units and transposes everything, runs one kernel over
    16 lane blocks of the transposed batch, and transposes the result back: its result array is `Mlp.narrow` of the
    arguments (Proof/KernelHost.lean: the slices and transposes read at an index; Proof/KernelBody.lean: the body at an
    entry; Proof/KernelArray.lean: the blocks tile the array, and the last transpose).

  `Mlp.narrow = Mlp.wide` as soon as rows 32 … 127 of `w2` and of `w3` are zero (Proof/Mlp.lean): a hidden unit of index
  ≥ 32 then meets the factor `0` in the next layer, and `t · 0 = 0` for every extended real `t`, so each 128-term sum
  is its first 32 terms; the remaining difference is the order of the factors in each product.  Those two facts are
  conjuncts of the precondition (Proof/PadZero.lean reads them off it).  Finiteness of the inputs is not used.

  Each matrix product at an entry is the sum over its contracted axis (Proof/MatmulAt.lean).  The three frames are the
  generated ones; the idealization rewrote nothing, so `preserves` is `True`.
-/
import proofs.«123555_g2000006235729332_pallasbulk_469_5_alg».proof.Defs
import proofs.«123555_g2000006235729332_pallasbulk_469_5_alg».proof.Proof.Gen.Kernel
import proofs.«123555_g2000006235729332_pallasbulk_469_5_alg».proof.Proof.Gen.Kernel.Frame
import proofs.«123555_g2000006235729332_pallasbulk_469_5_alg».proof.Proof.Gen.KernelIdeal
import proofs.«123555_g2000006235729332_pallasbulk_469_5_alg».proof.Proof.Gen.KernelIdeal.Frame
import proofs.«123555_g2000006235729332_pallasbulk_469_5_alg».proof.Proof.Gen.ReferenceIdeal
import proofs.«123555_g2000006235729332_pallasbulk_469_5_alg».proof.Proof.Gen.ReferenceIdeal.Frame
import proofs.«123555_g2000006235729332_pallasbulk_469_5_alg».proof.Proof.Gen.ReferenceIdeal.Value
import proofs.«123555_g2000006235729332_pallasbulk_469_5_alg».proof.Proof.Gen.Pre_finite_inputs
import proofs.«123555_g2000006235729332_pallasbulk_469_5_alg».proof.Proof.Mlp
import proofs.«123555_g2000006235729332_pallasbulk_469_5_alg».proof.Proof.PadZero
import proofs.«123555_g2000006235729332_pallasbulk_469_5_alg».proof.Proof.KernelArray
import proofs.«123555_g2000006235729332_pallasbulk_469_5_alg».proof.Proof.RefArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

/-- The idealization rewrote no operation. -/
theorem preserves : Cert.preserves_Kernel_KernelIdeal := trivial

/-- From memories agreeing on the arguments the kernel ends at the 32-wide network of them and the reference at the
    128-wide one; under the precondition rows 32 … 127 of `w2` and `w3` are zero, and the two networks are one function. -/
theorem algebraic : Cert.algebraic_KernelIdeal_ReferenceIdeal := by
  intro m ρ m' ρ' hpre hagree
  refine ⟨fun c => Cert.KernelArray.result m c, Cert.KernelArray.run m ρ, ?_⟩
  refine (θ_run Cert.ReferenceIdeal.defs _ _).mono (fun _ h c => ⟨(h c).1.trans ?_, (h c).2⟩) (Cert.RefArray.run m' ρ')
  obtain ⟨e0, e1, e2, e3, e4, e5, e6⟩ := hagree c
  have hw2 := Cert.PadZero.w2_rows _ _ _ _ _ _ _ (hpre c)
  have hw3 := Cert.PadZero.w3_rows _ _ _ _ _ _ _ (hpre c)
  show Cert.Mlp.wide (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
      = Cert.Mlp.narrow (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
  rw [e0, e1, e2, e3, e4, e5, e6]
  exact (Cert.Mlp.narrow_eq_wide _ _ _ _ _ _ _ hw2 hw3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
